-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x8 : Shape := ⟨2, ![1250000, 8]⟩
abbrev S8x64 : Shape := ⟨2, ![8, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x8 : S_.BroadcastsInDim S1250000x8 (![] : Fin 0 → Fin S1250000x8.rank)
  reducesTo_S1250000x8_S_d0_1 : S1250000x8.ReducesTo [0, 1] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1250000 32) (main_arg2 : FVec F S1250000x8 .f32) (main_arg3 : FVec F S8x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x8 .f32 := Host.absf main_arg2
  let main_cst_0 : FVec F S_ .f32 := constant S_ .f32 0x7F800000#32
  let main_v5 : FVec F S1250000x8 .f32 := broadcastInDim S1250000x8 ![] bcast_S_S1250000x8 main_cst_0
  let main_v6 : IVec S1250000x8 1 := cmpf .olt main_v4 main_v5
  let main_c_1 : IVec S_ 1 := constantI S_ 1 1#1
  let main_v7 : IVec S_ 1 := (fun x v => Host.reduce IntOp.andi x v reducesTo_S1250000x8_S_d0_1 h_S_) main_v6 main_c_1
  let main_v8 : IVec S_ 1 := andi main_v3 main_v7
  let main_v9 : FVec F S8x64 .f32 := Host.absf main_arg3
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1250000 : Shape := ⟨2, ![2, 1250000]⟩
abbrev S1250000x8 : Shape := ⟨2, ![1250000, 8]⟩
abbrev S8x64 : Shape := ⟨2, ![8, 64]⟩
abbrev S64 : Shape := ⟨1, ![64]⟩
abbrev S64x64 : Shape := ⟨2, ![64, 64]⟩
abbrev S1x1250000 : Shape := ⟨2, ![1, 1250000]⟩
abbrev S1250000 : Shape := ⟨1, ![1250000]⟩
abbrev S1250000x64 : Shape := ⟨2, ![1250000, 64]⟩
abbrev S5000x8 : Shape := ⟨2, ![5000, 8]⟩
abbrev S5000x64 : Shape := ⟨2, ![5000, 64]⟩
abbrev S1x64 : Shape := ⟨2, ![1, 64]⟩
abbrev S5000x1 : Shape := ⟨2, ![5000, 1]⟩
abbrev S_ : Shape := ⟨0, ![]⟩
abbrev S1250000x1 : Shape := ⟨2, ![1250000, 1]⟩

abbrev nBuf : Space → Nat
  | .hbm => 15
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x8, .f32⟩
  | .hbm, ⟨3, _⟩ => ⟨S8x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1250000x64, .f32⟩
  | .hbm, ⟨10, _⟩ => ⟨S_, .f32⟩
  | .hbm, ⟨11, _⟩ => ⟨S100000x64, .f32⟩
  | .hbm, ⟨12, _⟩ => ⟨S1250000x1, .i32⟩
  | .hbm, ⟨13, _⟩ => ⟨S100000x64, .f32⟩
  | .hbm, ⟨14, _⟩ => ⟨S100000x64, .f32⟩
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1250000_S1x1250000_1_0 : S2x1250000.Slices ![1, 0] S1x1250000
  shapeCasts_S1x1250000_S1250000 : S1x1250000.ShapeCasts S1250000
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S5000x8_o0_2_S5000x1 : S5000x8.Slices ![0, 2] S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S1250000_S1250000x1_0 : S1250000.BroadcastsInDim S1250000x1 (![0] : Fin 1 → Fin S1250000x1.rank)
  dot_S5000x8_S8x64_S5000x64_1_0_0_1_n_n_wf : DotDims.WF S5000x8 S8x64 S5000x64 [1] [0] [0] [1] [] []
  dot_S5000x64_S64x64_S5000x64_1_0_0_1_n_n_wf : DotDims.WF S5000x64 S64x64 S5000x64 [1] [0] [0] [1] [] []
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S1250000x8.size a
  hwx0_0 : ∀ i : grid0.Coords, EltTy.bits .f32 = 32 ∨ (Rect.block (s := S1250000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S1250000x64.size a
  hwx0_5 : ∀ i : grid0.Coords, EltTy.bits .f32 = 32 ∨ (Rect.block (s := S1250000x64) S5000x64.size (cc0_transform_5 i) (hinb0_5 i)).WholeWords (EltTy.packing .f32)

variable [Facts₀]

def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg2) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x8 : Shape := ⟨2, ![1250000, 8]⟩
abbrev S8x64 : Shape := ⟨2, ![8, 64]⟩
abbrev S64 : Shape := ⟨1, ![64]⟩
abbrev S64x64 : Shape := ⟨2, ![64, 64]⟩
abbrev S1x1250000 : Shape := ⟨2, ![1, 1250000]⟩
abbrev S1250000 : Shape := ⟨1, ![1250000]⟩
abbrev S1250000x64 : Shape := ⟨2, ![1250000, 64]⟩
abbrev S1x64 : Shape := ⟨2, ![1, 64]⟩
abbrev S_ : Shape := ⟨0, ![]⟩
abbrev S1250000x1 : Shape := ⟨2, ![1250000, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x8, .f32⟩
  | .hbm, ⟨3, _⟩ => ⟨S8x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1250000x64, .f32⟩
  | .hbm, ⟨10, _⟩ => ⟨S1x64, .f32⟩
  | .hbm, ⟨11, _⟩ => ⟨S1250000x64, .f32⟩
  | .hbm, ⟨12, _⟩ => ⟨S1250000x64, .f32⟩
  | .hbm, ⟨13, _⟩ => ⟨S_, .f32⟩
  | .hbm, ⟨14, _⟩ => ⟨S1250000x64, .f32⟩
  | .hbm, ⟨15, _⟩ => ⟨S1250000x64, .f32⟩
  | .hbm, ⟨16, _⟩ => ⟨S1250000x64, .f32⟩
  | .hbm, ⟨17, _⟩ => ⟨S1x64, .f32⟩
  | .hbm, ⟨18, _⟩ => ⟨S1250000x64, .f32⟩
  | .hbm, ⟨19, _⟩ => ⟨S1250000x64, .f32⟩
  | .hbm, ⟨20, _⟩ => ⟨S1250000x1, .f32⟩
  | .hbm, ⟨21, _⟩ => ⟨S1250000x1, .f32⟩
  | .hbm, ⟨22, _⟩ => ⟨S1250000x1, .f32⟩
  | .hbm, ⟨23, _⟩ => ⟨S_, .f32⟩
  | .hbm, ⟨24, _⟩ => ⟨S1250000x1, .f32⟩
  | .hbm, ⟨25, _⟩ => ⟨S1250000x1, .f32⟩
  | .hbm, ⟨26, _⟩ => ⟨S_, .f32⟩
  | .hbm, ⟨27, _⟩ => ⟨S1250000x1, .f32⟩
  | .hbm, ⟨28, _⟩ => ⟨S1250000x1, .f32⟩
  | .hbm, ⟨29, _⟩ => ⟨S1250000x64, .f32⟩
  | .hbm, ⟨30, _⟩ => ⟨S1250000x64, .f32⟩
  | .hbm, ⟨31, _⟩ => ⟨S_, .f32⟩
  | .hbm, ⟨32, _⟩ => ⟨S100000x64, .f32⟩
  | .hbm, ⟨33, _⟩ => ⟨S1250000x1, .i32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  slices_S2x1250000_S1x1250000_1_0 : S2x1250000.Slices ![1, 0] S1x1250000
  shapeCasts_S1x1250000_S1250000 : S1x1250000.ShapeCasts S1250000
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S1250000x64 : S_.BroadcastsInDim S1250000x64 (![] : Fin 0 → Fin S1250000x64.rank)
  slices_S1250000x8_S1250000x1_0_2 : S1250000x8.Slices ![0, 2] S1250000x1
  bcast_S_S1250000x1 : S_.BroadcastsInDim S1250000x1 (![] : Fin 0 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S1250000_S1250000x1_0 : S1250000.BroadcastsInDim S1250000x1 (![0] : Fin 1 → Fin S1250000x1.rank)
  dot_S1250000x8_S8x64_S1250000x64_1_0_0_1_n_n_wf : DotDims.WF S1250000x8 S8x64 S1250000x64 [1] [0] [0] [1] [] []
  dot_S1250000x64_S64x64_S1250000x64_1_0_0_1_n_n_wf : DotDims.WF S1250000x64 S64x64 S1250000x64 [1] [0] [0] [1] [] []
  scatter_S100000x64_S1250000x1_S1250000x64_1_0_0_1_wf : ScatterDims.WF S100000x64 S1250000x1 S1250000x64 [1] [0] [0] 1

variable [Facts₀]

def dot_S1250000x8_S8x64_S1250000x64_1_0_0_1_n_n : DotDims S1250000x8 S8x64 S1250000x64 where
  lhsContracting := [1]
  rhsContracting := [0]
  lhsNonContracting := [0]
  rhsNonContracting := [1]
  lhsBatch := []
  rhsBatch := []
  wf := dot_S1250000x8_S8x64_S1250000x64_1_0_0_1_n_n_wf
def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.GatedMessage.lean ====
/-
  The message one edge sends, as a function of that edge's eight attributes and of the two layers' weights.

  An edge with attribute row `a` (eight extended reals) first passes through a linear layer with a ramp:
  hidden unit `k` is `max (∑ l, a l · W1 (l, k) + b1 k) 0`.  A second linear layer gives feature `j` the value
  `∑ k, hidden k · W2 (k, j) + b2 j`, and the whole row is scaled by the sigmoid of the edge's third attribute,
  `1 / (1 + e^(-a 2))`.  Nothing in this formula mixes different edges: it is read one row at a time, so it
  says the same thing of a block of 5000 consecutive edges and of all 1250000 of them.

  The zero the ramp compares with is kept as the bit pattern of the 32-bit float zero: both programs spell it
  that way, so it is never evaluated.  The sigmoid is the extended reals' `Ideal.logistic`; a program that spells
  it out with the 32-bit float one in the numerator and in the denominator computes the same function, because that
  pattern denotes the real number one.
-/
import Idealize.ShloMosaic.PureOps.Ideal
import Idealize.ShloMosaic.PureOps.Ideal.Laws
import Idealize.ShloMosaic.Lib.ValueIdx

noncomputable section

open scoped BigOperators

namespace Cert.GatedMessage

open Idealize.ShloMosaic Idealize.ShloMosaic.ValueIdx

/-- Hidden unit `k` of an edge with attribute row `a`: the first layer's affine value, cut off below at zero. -/
def hiddenUnit (a : Fin 8 → EReal) (W1 : FVec Ideal ⟨2, ![8, 64]⟩ .f32) (b1 : FVec Ideal ⟨1, ![64]⟩ .f32) (k : Fin 64) : EReal :=
  max ((∑ l : Fin 8, a l * W1 (ix2 l k)) + b1 (ix1 k)) (Ideal.ofBits .f32 0x00000000#32)

/-- Feature `j` of the message of an edge with attribute row `a`: the second layer's affine value of the hidden
    units, times the sigmoid of the edge's third attribute. -/
def rowMsg (a : Fin 8 → EReal) (W1 : FVec Ideal ⟨2, ![8, 64]⟩ .f32) (b1 : FVec Ideal ⟨1, ![64]⟩ .f32)
    (W2 : FVec Ideal ⟨2, ![64, 64]⟩ .f32) (b2 : FVec Ideal ⟨1, ![64]⟩ .f32) (j : Fin 64) : EReal :=
  ((∑ k : Fin 64, hiddenUnit a W1 b1 k * W2 (ix2 k j)) + b2 (ix1 j)) * Ideal.logistic (a 2)

/-- All edges' messages: entry `(e, j)` is feature `j` of the message of edge `e`'s attribute row. -/
def edgeMsg (ea : FVec Ideal ⟨2, ![1250000, 8]⟩ .f32) (W1 : FVec Ideal ⟨2, ![8, 64]⟩ .f32) (b1 : FVec Ideal ⟨1, ![64]⟩ .f32)
    (W2 : FVec Ideal ⟨2, ![64, 64]⟩ .f32) (b2 : FVec Ideal ⟨1, ![64]⟩ .f32) : FVec Ideal ⟨2, ![1250000, 64]⟩ .f32 :=
  fun i => rowMsg (fun l => ea (ix2 (i 0) l)) W1 b1 W2 b2 (i 1)

/-- The bit pattern of the 32-bit float one denotes the real number one. -/
theorem ofBits_one_f32 : Ideal.ofBits .f32 0x3F800000#32 = 1 := by
  simp [Ideal.ofBits, Ideal.ieee, -EReal.coe_mul]; norm_num

/-- The sigmoid spelt out with float ones, `1 / (1 + e^(-x))`, is the extended reals' sigmoid. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.GatedMessage

end
-- ==== Proof.RefMessage.lean ====
/-
  The reference's message array, entry by entry, is the edge message of `GatedMessage`.

  The reference computes all 1250000 rows at once: a matrix product with the first layer's weights, the bias added
  along rows, the ramp, a second matrix product, the second bias, and the sigmoid of attribute column 2 spelt out as
  `1 / (1 + e^(-x))` and broadcast along each row.  Read at entry `(e, j)` every one of these steps looks only at
  row `e` of the attributes, and the two matrix products are the sums over the hidden units and over the eight
  attributes that the edge message is made of.
-/
import proofs.«422842_j21045339750818_3_alg».proof.Proof.Gen.ReferenceIdeal.Read
import proofs.«422842_j21045339750818_3_alg».proof.Proof.GatedMessage

noncomputable section

open scoped BigOperators

namespace Cert.RefMessage

open Idealize.ShloMosaic Idealize.ShloMosaic.ValueIdx Cert.ReferenceIdeal Cert.ReferenceIdeal.Read Cert.GatedMessage

/-- Entry `(e, j)` of the reference's message array is feature `j` of the message of attribute row `e`. -/
theorem msg_entry (x2 : FVec Ideal S1250000x8 .f32) (x3 : FVec Ideal S8x64 .f32) (x4 : FVec Ideal S64 .f32)
    (x5 : FVec Ideal S64x64 .f32) (x6 : FVec Ideal S64 .f32) (e : Fin 1250000) (j : Fin 64) :
    val_main_v20 (F := Ideal) x2 x3 x4 x5 x6 (ix2 e j) = rowMsg (fun l => x2 (ix2 e l)) x3 x4 x5 x6 j := by
  rw [val_main_v20_apply, val_main_v11_apply, val_main_v8_apply, val_main_v10_apply, val_main_v9_apply,
    val_main_v19_apply, val_main_v18_apply, val_main_v17_apply, val_main_cst_1_apply, val_main_v16_apply,
    val_main_v15_apply, val_main_cst_0_apply, val_main_v14_apply, val_main_v13_apply, val_main_v12_apply]
  have h8l : ∀ k : Fin 64, lidx_main_v8 (ix2 e j) k = ix2 e k := fun k =>
    funext fun a => Fin.ext (by match a with | ⟨0, _⟩ => rfl | ⟨1, _⟩ => rfl)
  have h8r : ∀ k : Fin 64, ridx_main_v8 (ix2 e j) k = ix2 k j := fun k =>
    funext fun a => Fin.ext (by match a with | ⟨0, _⟩ => rfl | ⟨1, _⟩ => rfl)
  have h9 : idx_main_v9 (idx_main_v10 (ix2 e j)) = ix1 j :=
    funext fun a => Fin.ext (by match a with | ⟨0, _⟩ => rfl)
  have h12 : idx_main_v12 (idx_main_v19 (ix2 e j)) = ix2 e (2 : Fin 8) :=
    funext fun a => Fin.ext (by match a with | ⟨0, _⟩ => rfl | ⟨1, _⟩ => rfl)
  have h7 : ∀ k : Fin 64, val_main_v7 (F := Ideal) x2 x3 x4 (ix2 e k) = hiddenUnit (fun l => x2 (ix2 e l)) x3 x4 k := by
    intro k
    rw [val_main_v7_apply, val_main_v5_apply, val_main_v2_apply, val_main_v4_apply, val_main_v3_apply,
      val_main_v6_apply, val_main_cst_apply]
    have hl : ∀ l : Fin 8, lidx_main_v2 (ix2 e k) l = ix2 e l := fun l =>
      funext fun a => Fin.ext (by match a with | ⟨0, _⟩ => rfl | ⟨1, _⟩ => rfl)
    have hr : ∀ l : Fin 8, ridx_main_v2 (ix2 e k) l = ix2 l k := fun l =>
      funext fun a => Fin.ext (by match a with | ⟨0, _⟩ => rfl | ⟨1, _⟩ => rfl)
    have h3 : idx_main_v3 (idx_main_v4 (ix2 e k)) = ix1 k :=
      funext fun a => Fin.ext (by match a with | ⟨0, _⟩ => rfl)
    simp only [hl, hr, h3]
    rfl
  simp only [h8l, h8r, h9, h12, h7]
  unfold rowMsg
  simp only [Ideal.mulf_def, Ideal.addf_def, Ideal.hostDivf_def, Ideal.ofBits_def, Ideal.hostUnary_exp_def,
    Ideal.hostNegf_def, Ideal.negf_def, logistic_spelt]

/-- The reference's message array is the array of all edges' messages. -/
theorem msg_eq (x2 : FVec Ideal S1250000x8 .f32) (x3 : FVec Ideal S8x64 .f32) (x4 : FVec Ideal S64 .f32)
    (x5 : FVec Ideal S64x64 .f32) (x6 : FVec Ideal S64 .f32) :
    val_main_v20 (F := Ideal) x2 x3 x4 x5 x6 = edgeMsg x2 x3 x4 x5 x6 := by
  funext i
  obtain ⟨e, j, rfl⟩ : ∃ (e : Fin 1250000) (j : Fin 64), i = ix2 e j := ⟨i 0, i 1, eq_ix2 i⟩
  exact msg_entry x2 x3 x4 x5 x6 e j

end Cert.RefMessage

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  One block of the kernel, entry by entry, is the edge message of `GatedMessage` of the block's own rows.

  At a grid point the kernel body holds 5000 consecutive attribute rows and the whole weight arrays.  It rounds the
  attributes and the weights to a narrower float format (no change over the extended reals), multiplies the block by
  the first weights into a zero accumulator (entry `(p, k)` is the sum over the eight attributes of row `p`), adds
  the first bias as a `[1, 64]` row spread over the 5000 rows, applies the ramp, multiplies by the second weights the
  same way (a sum over the 64 hidden units), adds the second bias, and multiplies each row by the sigmoid of its
  attribute column 2, kept as a `[5000, 1]` column and spread along the row.
-/
import proofs.«422842_j21045339750818_3_alg».proof.Proof.Gen.KernelIdeal.Skeleton
import proofs.«422842_j21045339750818_3_alg».proof.Proof.GatedMessage
import proofs.«422842_j21045339750818_3_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelRow

open Idealize.ShloMosaic Idealize.ShloMosaic.ValueIdx Cert.KernelIdeal Cert.KernelIdeal.Gen Cert.GatedMessage

/-! ## The first product: 5000 rows of eight attributes by the [8, 64] weights -/

theorem lhs_first_0 (i : S5000x64.Idx) (q : dot_S5000x8_S8x64_S5000x64_1_0_0_1_n_n.contr.Idx) :
    (dot_S5000x8_S8x64_S5000x64_1_0_0_1_n_n.lhsIdx i q 0).val = (i 0).val := by
  unfold DotDims.lhsIdx
  rw [dif_neg (show ¬(0 : Fin S5000x8.rank) ∈ dot_S5000x8_S8x64_S5000x64_1_0_0_1_n_n.lhsBatch by decide), dif_pos (show (0 : Fin S5000x8.rank) ∈ dot_S5000x8_S8x64_S5000x64_1_0_0_1_n_n.lhsNonContracting by decide)]
  rfl
theorem lhs_first_1 (i : S5000x64.Idx) (q : dot_S5000x8_S8x64_S5000x64_1_0_0_1_n_n.contr.Idx) :
    (dot_S5000x8_S8x64_S5000x64_1_0_0_1_n_n.lhsIdx i q 1).val = (q ⟨0, by decide⟩).val :=
  dot_S5000x8_S8x64_S5000x64_1_0_0_1_n_n.lhsIdx_val_of_single rfl i q
theorem rhs_first_0 (i : S5000x64.Idx) (q : dot_S5000x8_S8x64_S5000x64_1_0_0_1_n_n.contr.Idx) :
    (dot_S5000x8_S8x64_S5000x64_1_0_0_1_n_n.rhsIdx i q 0).val = (q ⟨0, by decide⟩).val :=
  dot_S5000x8_S8x64_S5000x64_1_0_0_1_n_n.rhsIdx_val_of_single rfl i q
theorem rhs_first_1 (i : S5000x64.Idx) (q : dot_S5000x8_S8x64_S5000x64_1_0_0_1_n_n.contr.Idx) :
    (dot_S5000x8_S8x64_S5000x64_1_0_0_1_n_n.rhsIdx i q 1).val = (i 1).val := by
  unfold DotDims.rhsIdx
  rw [dif_neg (show ¬(1 : Fin S8x64.rank) ∈ dot_S5000x8_S8x64_S5000x64_1_0_0_1_n_n.rhsBatch by decide), dif_pos (show (1 : Fin S8x64.rank) ∈ dot_S5000x8_S8x64_S5000x64_1_0_0_1_n_n.rhsNonContracting by decide)]
  rfl

/-- Entry `(p, k)` of the first product into a zero accumulator: the sum over the eight attributes of row `p`. -/
theorem first_product {φ₁ φ₂ : FTy} (a : FVec Ideal S5000x8 φ₁) (w : FVec Ideal S8x64 φ₂) (p : Fin 5000) (k : Fin 64) :
    matmul (F := Ideal) dot_S5000x8_S8x64_S5000x64_1_0_0_1_n_n none a w (constant S5000x64 .f32 0x00000000#32) (ix2 p k)
      = ∑ l : Fin 8, a (ix2 p l) * w (ix2 l k) := by
  show FloatOps.matmul _ _ _ _ _ _ = _
  rw [Ideal.matmul_constant_zero_apply, ← Equiv.sum_comp (ValueIdx.contrEquiv1 dot_S5000x8_S8x64_S5000x64_1_0_0_1_n_n 8 rfl rfl).symm]
  refine Finset.sum_congr rfl fun l _ => ?_
  have hl := ValueIdx.contrEquiv1_symm_val dot_S5000x8_S8x64_S5000x64_1_0_0_1_n_n 8 rfl rfl l
  have el : dot_S5000x8_S8x64_S5000x64_1_0_0_1_n_n.lhsIdx (ix2 p k) ((ValueIdx.contrEquiv1 dot_S5000x8_S8x64_S5000x64_1_0_0_1_n_n 8 rfl rfl).symm l) = ix2 p l := funext fun a => Fin.ext (by
    match a with
    | ⟨0, _⟩ => exact lhs_first_0 _ _
    | ⟨1, _⟩ => exact (lhs_first_1 _ _).trans hl)
  have er : dot_S5000x8_S8x64_S5000x64_1_0_0_1_n_n.rhsIdx (ix2 p k) ((ValueIdx.contrEquiv1 dot_S5000x8_S8x64_S5000x64_1_0_0_1_n_n 8 rfl rfl).symm l) = ix2 l k := funext fun a => Fin.ext (by
    match a with
    | ⟨0, _⟩ => exact (rhs_first_0 _ _).trans hl
    | ⟨1, _⟩ => exact rhs_first_1 _ _)
  rw [el, er]

/-! ## The second product: 5000 rows of 64 hidden units by the [64, 64] weights -/

theorem lhs_second_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_second_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_second_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_second_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(p, j)` of the second product into a zero accumulator: the sum over the 64 hidden units of row `p`. -/
theorem second_product {φ₁ φ₂ : FTy} (h : FVec Ideal S5000x64 φ₁) (w : FVec Ideal S64x64 φ₂) (p : Fin 5000) (j : Fin 64) :
    matmul (F := Ideal) dot_S5000x64_S64x64_S5000x64_1_0_0_1_n_n none h w (constant S5000x64 .f32 0x00000000#32) (ix2 p j)
      = ∑ k : Fin 64, h (ix2 p k) * w (ix2 k j) := by
  show FloatOps.matmul _ _ _ _ _ _ = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact lhs_second_0 _ _
    | ⟨1, _⟩ => exact (lhs_second_1 _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (rhs_second_0 _ _).trans hk
    | ⟨1, _⟩ => exact rhs_second_1 _ _)
  rw [el, er]

/-! ## The layout steps around the biases and the gate -/

/-- A length-64 bias, cast to one row and spread over the 5000 rows, reads at `(p, k)` the bias at `k`. -/
theorem bias_spread (b : FVec Ideal S64 .f32) (p : Fin 5000) (k : Fin 64) :
    broadcastTo S5000x64 (shapeCast S1x64 b shapeCasts_S64_S1x64) broadcasts_S1x64_S5000x64 (ix2 p k) = b (ix1 k) := by
  rw [broadcastTo_1b_ab_apply, shapeCast_a_1a_apply]

/-- The sigmoid of attribute column 2, kept as a column and spread along each row, reads at `(p, j)` the sigmoid of
    row `p`'s third attribute. -/
theorem gate_spread (x : FVec Ideal S5000x8 .f32) (p : Fin 5000) (j : Fin 64) :
    broadcastTo S5000x64 (logistic (extractStridedSlice S5000x1 ![0, 2] x slices_S5000x8_o0_2_S5000x1)) broadcasts_S5000x1_S5000x64 (ix2 p j)
      = Ideal.logistic (x (ix2 p (2 : Fin 8))) := by
  rw [broadcastTo_a1_ab_apply]
  show Ideal.logistic (extractStridedSlice S5000x1 ![0, 2] x slices_S5000x8_o0_2_S5000x1 (ix2 p (0 : Fin 1))) = _
  rw [extractStridedSlice_apply ![0, 2] x slices_S5000x8_o0_2_S5000x1 (ix2 p (0 : Fin 1)) (ix2 p (2 : Fin 8)) (fun a => match a with
    | ⟨0, _⟩ => by show p.val = 0 + p.val; omega
    | ⟨1, _⟩ => by show 2 = 2 + 0; rfl)]

/-! ## The body's stored value at an entry -/

/-- Entry `(p, j)` of what the body stores is feature `j` of the message of the block's row `p`. -/
theorem payload_entry (x0 : Vec Ideal S5000x8 .f32) (x1 : Vec Ideal S8x64 .f32) (x2 : Vec Ideal S64 .f32)
    (x3 : Vec Ideal S64x64 .f32) (x4 : Vec Ideal S64 .f32) (p : Fin 5000) (j : Fin 64) :
    k0_pay1 (F := Ideal) x0 x1 x2 x3 x4 (ix2 p j) = rowMsg (fun l => x0 (ix2 p l)) x1 x2 x3 x4 j := by
  unfold k0_pay1
  rw [mulf_apply, addf_apply, second_product, bias_spread, gate_spread]
  unfold rowMsg
  congr 2
  refine Finset.sum_congr rfl fun k _ => ?_
  rw [truncf_apply, truncf_apply, maximumf_apply, addf_apply, first_product, bias_spread, broadcast_apply]
  unfold hiddenUnit
  simp only [truncf_apply]
  rfl

/-- A block whose row `p` is row `r` of the attribute array stores, at `(p, j)`, entry `(r, j)` of all edges'
    messages. -/
theorem rows_of_block (x0 : Vec Ideal S5000x8 .f32) (A : FVec Ideal S1250000x8 .f32) (x1 : Vec Ideal S8x64 .f32)
    (x2 : Vec Ideal S64 .f32) (x3 : Vec Ideal S64x64 .f32) (x4 : Vec Ideal S64 .f32)
    (p : Fin 5000) (j : Fin 64) (r : Fin 1250000) (hx : ∀ l : Fin 8, x0 (ix2 p l) = A (ix2 r l)) :
    k0_pay1 (F := Ideal) x0 x1 x2 x3 x4 (ix2 p j) = edgeMsg A x1 x2 x3 x4 (ix2 r j) := by
  rw [payload_entry]
  show rowMsg _ _ _ _ _ _ = rowMsg _ _ _ _ _ _
  congr 1
  funext l
  exact hx l

end Cert.KernelRow

end
-- ==== Proof.KernelArray.lean ====
/-
  The message array the kernel leaves behind is the array of all edges' messages.

  The grid has 250 points; point `t` reads attribute rows `5000 t … 5000 t + 4999` and the whole of both weight
  matrices and both biases, and writes message rows `5000 t … 5000 t + 4999`.  By `KernelRow` the block written at
  point `t` holds, at `(p, j)`, feature `j` of the message of the block's row `p`, which is row `5000 t + p` of the
  attribute array: so the block is exactly rows `5000 t …` of the array of all edges' messages.  The 250 blocks tile
  the 1250000 rows (row `r` lies in block `r / 5000`), so after the last point the whole array is that one function
  of the argument arrays.
-/
import proofs.«422842_j21045339750818_3_alg».proof.Proof.Gen.KernelIdeal.Frame
import proofs.«422842_j21045339750818_3_alg».proof.Proof.KernelRow
import Idealize.ShloMosaic.Lib.Pipeline.Value
import Idealize.ShloMosaic.Lib.Tactic

set_option maxRecDepth 16384

noncomputable section

open scoped BigOperators

namespace Cert.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.GatedMessage

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the attribute window and the message window move with the point along the rows; the
    weights' and biases' windows stay at block zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The attribute array, the weights and the biases as the region finds them, at their literal types. -/
abbrev attrs (c : Dev nD) : FVec Ideal S1250000x8 .f32 := V m c main_arg2
abbrev w1 (c : Dev nD) : FVec Ideal S8x64 .f32 := V m c main_arg3
abbrev bias1 (c : Dev nD) : FVec Ideal S64 .f32 := V m c main_arg4
abbrev w2 (c : Dev nD) : FVec Ideal S64x64 .f32 := V m c main_arg5
abbrev bias2 (c : Dev nD) : FVec Ideal S64 .f32 := V m c main_arg6

/-- Row `p` of the attribute block at point `t` is row `5000 t + p` of the attribute array. -/
theorem attr_block (c : Dev nD) (t : Fin cfg0.N) (p : Fin 5000) (l : Fin 8) (r : Fin 1250000) (hr : r.val = t.val * 5000 + p.val) :
    (iblk m c 0 t : Vec Ideal S5000x8 .f32) (ix2 p l) = attrs m c (ix2 r l) := by
  obtain ⟨e0, e1, -⟩ := block_indices t
  unfold iblk
  rw [View.read_apply]
  show V m c main_arg2 _ = V m c main_arg2 _
  congr 1
  funext a
  apply Fin.ext
  match a with
  | ⟨0, _⟩ => show win0_0.index t 0 * 5000 + 1 * p.val = r.val; rw [e0, hr]; omega
  | ⟨1, _⟩ => show win0_0.index t 1 * 8 + 1 * l.val = l.val; rw [e1]; omega

/-- The first weights' block at any point is the whole array. -/
theorem w1_block (c : Dev nD) (t : Fin cfg0.N) : (iblk m c 1 t : Vec Ideal S8x64 .f32) = w1 m c := by
  obtain ⟨-, -, e0, e1, -⟩ := block_indices t
  funext y
  unfold iblk
  rw [View.read_apply]
  show V m c main_arg3 _ = V m c main_arg3 _
  congr 1
  funext a
  apply Fin.ext
  match a with
  | ⟨0, _⟩ => show win0_1.index t 0 * 8 + 1 * (y 0).val = (y 0).val; rw [e0]; omega
  | ⟨1, _⟩ => show win0_1.index t 1 * 64 + 1 * (y 1).val = (y 1).val; rw [e1]; omega

/-- The first bias' block at any point is the whole vector. -/
theorem bias1_block (c : Dev nD) (t : Fin cfg0.N) : (iblk m c 2 t : Vec Ideal S64 .f32) = bias1 m c := by
  obtain ⟨-, -, -, -, e0, -⟩ := block_indices t
  funext y
  unfold iblk
  rw [View.read_apply]
  show V m c main_arg4 _ = V m c main_arg4 _
  congr 1
  funext a
  apply Fin.ext
  match a with
  | ⟨0, _⟩ => show win0_2.index t 0 * 64 + 1 * (y 0).val = (y 0).val; rw [e0]; omega

/-- The second weights' block at any point is the whole array. -/
theorem w2_block (c : Dev nD) (t : Fin cfg0.N) : (iblk m c 3 t : Vec Ideal S64x64 .f32) = w2 m c := by
  obtain ⟨-, -, -, -, -, e0, e1, -⟩ := block_indices t
  funext y
  unfold iblk
  rw [View.read_apply]
  show V m c main_arg5 _ = V m c main_arg5 _
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

/-- The second bias' block at any point is the whole vector. -/
theorem bias2_block (c : Dev nD) (t : Fin cfg0.N) : (iblk m c 4 t : Vec Ideal S64 .f32) = bias2 m c := by
  obtain ⟨-, -, -, -, -, -, -, e0, -⟩ := block_indices t
  funext y
  unfold iblk
  rw [View.read_apply]
  show V m c main_arg6 _ = V m c main_arg6 _
  congr 1
  funext a
  apply Fin.ext
  match a with
  | ⟨0, _⟩ => show win0_4.index t 0 * 64 + 1 * (y 0).val = (y 0).val; rw [e0]; omega

/-- All edges' messages, of the argument arrays as the region finds them. -/
abbrev messages (c : Dev nD) : FVec Ideal S1250000x64 .f32 :=
  edgeMsg (attrs m c) (w1 m c) (bias1 m c) (w2 m c) (bias2 m c)

/-- What point `t` writes back is rows `5000 t … 5000 t + 4999` of all edges' messages. -/
theorem flushed_eq (c : Dev nD) (t : Fin cfg0.N) :
    (dats m 0 c).flushed 5 t = ((cfg0.win 5).blk t).view.read (Elt Ideal) (messages m c) := by
  show (cfg0.win 5).cut (grid0.coords t) ((dats m 0 c).after 5 t) = _
  rw [after0_5]
  unfold out0_5
  rw [View.canon_unit_zero hz2]
  simp only [View.ld_unit_zero (S := S5000x8) hz2, View.ld_unit_zero (S := S8x64) hz2, View.ld_unit_zero (S := S64) hz1,
    View.ld_unit_zero (S := S64x64) hz2]
  rw [w1_block, bias1_block, w2_block, bias2_block]
  obtain ⟨-, -, -, -, -, -, -, -, e0, e1⟩ := block_indices t
  have hN : t.val < 250 := Nat.lt_of_lt_of_eq t.isLt N_0
  funext y
  have hy0 : (y 0).val < 5000 := (y 0).isLt
  have hy1 : (y 1).val < 64 := (y 1).isLt
  rw [View.read_apply]
  have hx : (cfg0.win 5).xinj (grid0.coords t) y = ix2 (⟨(y 0).val, hy0⟩ : Fin 5000) (⟨(y 1).val, hy1⟩ : Fin 64) :=
    funext fun a => Fin.ext (by match a with | ⟨0, _⟩ => rfl | ⟨1, _⟩ => rfl)
  show k0_pay1 (F := Ideal) (iblk m c 0 t) (w1 m c) (bias1 m c) (w2 m c) (bias2 m c) ((cfg0.win 5).xinj (grid0.coords t) y)
    = messages m c (((cfg0.win 5).blk t).view.emb y)
  have hemb : ((cfg0.win 5).blk t).view.emb y = ix2 (⟨t.val * 5000 + (y 0).val, by omega⟩ : Fin 1250000) (⟨(y 1).val, hy1⟩ : Fin 64) := by
    funext a
    apply Fin.ext
    match a with
    | ⟨0, _⟩ => show win0_5.index t 0 * 5000 + 1 * (y 0).val = t.val * 5000 + (y 0).val; rw [e0]; omega
    | ⟨1, _⟩ => show win0_5.index t 1 * 64 + 1 * (y 1).val = (y 1).val; rw [e1]; omega
  rw [hx, hemb]
  exact Cert.KernelRow.rows_of_block (iblk m c 0 t) (attrs m c) (w1 m c) (bias1 m c) (w2 m c) (bias2 m c)
    ⟨(y 0).val, hy0⟩ ⟨(y 1).val, hy1⟩ ⟨t.val * 5000 + (y 0).val, by omega⟩
    (fun l => attr_block m c t ⟨(y 0).val, hy0⟩ l ⟨t.val * 5000 + (y 0).val, by omega⟩ rfl)

/-- An index of the message array is in point `t`'s block iff each coordinate is in the block's range on its axis. -/
theorem mem_block (t : Fin cfg0.N) (i : S1250000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v2).slice (win0_5.rect t)).set ↔ _
  rw [View.set_slice_whole, Rect.mem_set_unit]
  exact Iff.rfl

/-- Every row of the message array lies in some point's block: row `r` in block `r / 5000`. -/
theorem covered (i : S1250000x64.Idx) :
    ∃ t : Fin cfg0.N, (cfg0.win 5).flush t = true ∧ i ∈ ((cfg0.win 5).blk t).view.set := by
  have hi0 : (i 0).val < 1250000 := (i 0).isLt
  have hi1 : (i 1).val < 64 := (i 1).isLt
  have hN : cfg0.N = 250 := N_0
  let t : Fin cfg0.N := ⟨(i 0).val / 5000, by rw [hN]; omega⟩
  obtain ⟨-, -, -, -, -, -, -, -, e0, e1⟩ := block_indices t
  have ht : t.val = (i 0).val / 5000 := rfl
  refine ⟨t, flush0_5 t, ?_⟩
  rw [mem_block]
  intro a
  match a with
  | ⟨0, _⟩ => show win0_5.index t 0 * 5000 ≤ (i 0).val ∧ (i 0).val < win0_5.index t 0 * 5000 + 5000; rw [e0, ht]; omega
  | ⟨1, _⟩ => show win0_5.index t 1 * 64 ≤ (i 1).val ∧ (i 1).val < win0_5.index t 1 * 64 + 64; rw [e1]; omega

/-- After the last point the message array holds all edges' messages. -/
theorem final (c : Dev nD) : (dats m 0 c).arrAt 5 cfg0.N = messages m c :=
  (dats m 0 c).arrAt_eq_of_cover 5 (messages m c) (fun t _ => flushed_eq m c t) covered

end Cert.KernelArray

end
-- ==== Proof.KernelRun.lean ====
/-
  The kernel program's result: the node features plus the messages summed into their destination nodes.

  After the region the program builds a zero array of the nodes' shape, turns row 1 of the edge index (taken and
  flattened before the region) into a column of destination nodes, adds every edge's message row into its
  destination's row, and adds the node features.  The message array going into that sum is, by `KernelArray`, the
  array of all edges' messages; the destination column and the node features are read from arguments no step of
  the program writes.
-/
import proofs.«422842_j21045339750818_3_alg».proof.Proof.KernelArray
import Idealize.ShloMosaic.Lib.StableHlo.Run

set_option maxRecDepth 16384

noncomputable section

namespace Cert.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.GatedMessage Cert.KernelArray

variable (m : (ℓ : Loc nD τ sig) → Buf (Elt Ideal) ℓ) (ρ : Dev nD → PrngReg)

/-- The sum of message rows into destination rows, on top of the node features: the program's last five steps as one
    function of the node features, the edge index and a message array. -/
def scatterOnto (x : FVec Ideal S100000x64 .f32) (ei : IVec S2x1250000 32) (msg : FVec Ideal S1250000x64 .f32) :
    FVec Ideal S100000x64 .f32 :=
  addf x (Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0
      (shapeCast S1250000 (extractStridedSlice S1x1250000 ![1, 0] ei slices_S2x1250000_S1x1250000_1_0) shapeCasts_S1x1250000_S1250000))
    msg)

/-- Row 1 of the edge index, flattened: each edge's destination node. -/
abbrev destinations (c : Dev nD) : IVec S1250000 32 :=
  shapeCast S1250000 (extractStridedSlice S1x1250000 ![1, 0] (m ((c : Thread nD τ).loc main_arg1)) slices_S2x1250000_S1x1250000_1_0) shapeCasts_S1x1250000_S1250000

/-- The region finds the flattened destination row where the two steps before it left it. -/
theorem destinations_eq (c : Dev nD) : V m c main_v1 = destinations m c := by
  show StableHlo.after hostOps0 (fun b => m (c, b)) (Proc.devRef .tc main_v1) = _
  after_results
  rfl

/-- What the result buffer holds after the program's last steps. -/
theorem tail_eq (c : Dev nD) :
    Pipeline.afterTail₀ cfgs (dats m) 0 (V0 m) [hostOps1] c main_v6
      = scatterOnto (m ((c : Thread nD τ).loc main_arg0)) (m ((c : Thread nD τ).loc main_arg1)) (messages m c) := by
  unfold Pipeline.afterTail₀
  show StableHlo.after hostOps1 _ (Proc.devRef .tc main_v6) = _
  after_results
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h1 : Pipeline.withArrays (cfgs 0).spec c (V0 m c) (fun w => (dats m 0 c).arrAt w (cfgs 0).N) (Proc.devRef .tc main_v1)
      = destinations m c :=
    (Pipeline.withArrays_of_ne _ c (V0 m c) _ main_v1 (by exact (by decide : ∀ w, Pipeline.arrRef spec0 w ≠ main_v1))).trans
      (destinations_eq m c)
  have h2 : Pipeline.withArrays (cfgs 0).spec c (V0 m c) (fun w => (dats m 0 c).arrAt w (cfgs 0).N) (Proc.devRef .tc main_v2)
      = messages m c :=
    (Pipeline.withArrays_arr spec0 launch0.win.arr_inj c _ _ 5).trans (final m c)
  rw [h0, h1, h2]
  rfl

/-- All edges' messages of the argument arrays as launched. -/
abbrev launchedMessages (c : Dev nD) : FVec Ideal S1250000x64 .f32 :=
  edgeMsg (m ((c : Thread nD τ).loc main_arg2)) (m ((c : Thread nD τ).loc main_arg3)) (m ((c : Thread nD τ).loc main_arg4))
    (m ((c : Thread nD τ).loc main_arg5)) (m ((c : Thread nD τ).loc main_arg6))

/-- No step before the region writes the attributes, the weights or the biases: the region finds them as launched. -/
theorem messages_eq (c : Dev nD) : messages m c = launchedMessages m c := by
  show edgeMsg (V m c main_arg2) (V m c main_arg3) (V m c main_arg4) (V m c main_arg5) (V m c main_arg6) = _
  rw [V_main_arg2 m c, V_main_arg3 m c, V_main_arg4 m c, V_main_arg5 m c, V_main_arg6 m c]

/-- The program's result, as a function of the arguments as launched. -/
abbrev result (c : Dev nD) : FVec Ideal S100000x64 .f32 :=
  scatterOnto (m ((c : Thread nD τ).loc main_arg0)) (m ((c : Thread nD τ).loc main_arg1)) (launchedMessages m c)

/-- Every weakly fair execution of the kernel program terminates with the result buffer at `result` and the seven
    arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v6 (Pipeline.mem_restRefs_of main_v6 (by decide) (by decide))).trans
        ((tail_eq m c).trans (congrArg (scatterOnto _ _) (messages_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩)
    (run_main m ρ)

end Cert.KernelRun

end
-- ==== Proof.lean ====
/-
  A graph layer that sends one message along every edge and sums the messages into their destination nodes.

  For each of the 1250000 edges a small two-layer network turns the edge's eight attributes into 64 features (a linear
  layer, a ramp, a second linear layer), and the row is scaled by the sigmoid of the edge's third attribute.  Each
  message row is then added into the row of the edge's destination node (row 1 of the edge index), starting from zero,
  and the node features are added on top.

  The kernel program computes the message rows 5000 at a time on a grid of 250 points, rounding the attributes, the
  weights and the hidden units to a narrower float format before each matrix product; the reference computes all rows at
  once and spells the sigmoid out as `1 / (1 + e^(-x))`.  Over the extended reals the rounding steps change nothing, a
  matrix product into a zero accumulator and the host's product are the same finite sums, and the spelt-out sigmoid is
  the sigmoid: both message arrays are one function of the arguments (`Cert.GatedMessage.edgeMsg`), entry by entry.
  The summation into destination rows and the final addition are the same steps in both programs, applied to equal
  arrays, so they are never opened.  No law used here needs the inputs to be finite.

  The three frames: the two kernel programs' are the generated frames; the reference's is its generated run with the
  result dropped.  The idealization rewrote no operation, so there is nothing to preserve.
-/
import proofs.«422842_j21045339750818_3_alg».proof.Defs
import proofs.«422842_j21045339750818_3_alg».proof.Proof.Gen.Kernel
import proofs.«422842_j21045339750818_3_alg».proof.Proof.Gen.Kernel.Skeleton
import proofs.«422842_j21045339750818_3_alg».proof.Proof.Gen.Kernel.Launch
import proofs.«422842_j21045339750818_3_alg».proof.Proof.Gen.Kernel.Points
import proofs.«422842_j21045339750818_3_alg».proof.Proof.Gen.Kernel.Frame
import proofs.«422842_j21045339750818_3_alg».proof.Proof.Gen.KernelIdeal
import proofs.«422842_j21045339750818_3_alg».proof.Proof.Gen.KernelIdeal.Skeleton
import proofs.«422842_j21045339750818_3_alg».proof.Proof.Gen.KernelIdeal.Launch
import proofs.«422842_j21045339750818_3_alg».proof.Proof.Gen.KernelIdeal.Points
import proofs.«422842_j21045339750818_3_alg».proof.Proof.Gen.KernelIdeal.Frame
import proofs.«422842_j21045339750818_3_alg».proof.Proof.Gen.ReferenceIdeal
import proofs.«422842_j21045339750818_3_alg».proof.Proof.Gen.Pre_finite_inputs
import proofs.«422842_j21045339750818_3_alg».proof.Proof.Gen.ReferenceIdeal.Run
import proofs.«422842_j21045339750818_3_alg».proof.Proof.Gen.ReferenceIdeal.Read
import proofs.«422842_j21045339750818_3_alg».proof.Proof.RefMessage
import proofs.«422842_j21045339750818_3_alg».proof.Proof.KernelRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the node features plus the messages summed
    into their destinations: the kernel's message array is all edges' messages block by block, the reference's entry by
    entry, and the summation is the same function of equal arrays. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v24_eq]
  unfold Cert.ReferenceIdeal.Read.val_main_v24 Cert.ReferenceIdeal.Read.val_main_v23
  rw [Cert.RefMessage.msg_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
